-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x256 .f32) (main_arg1 : IVec S2x600000 32) (main_arg2 : FVec F S256x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S50000x128 : Shape := ⟨2, ![50000, 128]⟩
abbrev S5000x256 : Shape := ⟨2, ![5000, 256]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 83
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S600000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x1, .f32⟩
  | .hbm, ⟨54, _⟩ => ⟨S600000x128, .f32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S600000x1, .f32⟩
  | .hbm, ⟨73, _⟩ => ⟨S600000x128, .f32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S1x1, .f32⟩
  | .hbm, ⟨82, _⟩ => ⟨S50000x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x256_S256x128_S5000x128_1_0_0_1_n_n_wf : DotDims.WF S5000x256 S256x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x128 : Shape := ⟨2, ![50000, 128]⟩
abbrev S600000x128 : Shape := ⟨2, ![600000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S600000, .f32⟩
  | .hbm, ⟨41, _⟩ => ⟨S50000, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x1, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S600000x1, .f32⟩
  | .hbm, ⟨80, _⟩ => ⟨S600000x128, .f32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x1, .f32⟩
  | .hbm, ⟨97, _⟩ => ⟨S1x1, .f32⟩
  | .hbm, ⟨98, _⟩ => ⟨S50000x1, .f32⟩
  | .hbm, ⟨99, _⟩ => ⟨S50000x1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x256_S256x128_S50000x128_1_0_0_1_n_n_wf : DotDims.WF S50000x256 S256x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The network both programs compute, as functions of whole arrays at the ideal values.

  A two-layer graph convolution followed by a linear read-out. Writing `agg` for the message-passing aggregate of a
  node-feature matrix (gather the source rows, scale each edge's row by the edge weight, add the rows into their target
  nodes), `sn` for the per-node self-loop weight, one layer sends a feature matrix `h` to
      max ((agg (h·W) + (h·W) ⊙ sn) + b, 0)
  row by row, and the read-out is `h·Wl + bl`. The matrix product is the plain sum over the contracted axis; every
  other operation is applied entry by entry. The aggregate stays a parameter here: both programs apply the very same
  host gather/scatter to the product, so nothing of it is ever opened.
-/
import Idealize.ShloMosaic.PureOps.Ideal
import Idealize.ShloMosaic.Lib.ValueIdx

noncomputable section

open scoped BigOperators

namespace Cert.Spec

open Idealize.ShloMosaic Idealize.ShloMosaic.ValueIdx

/-- A real matrix of extended reals. -/
abbrev Mat (a b : ℕ) : Type := FVec Ideal ⟨2, ![a, b]⟩ .f32
/-- A vector of extended reals. -/
abbrev Row (a : ℕ) : Type := FVec Ideal ⟨1, ![a]⟩ .f32

/-- The matrix product: entry `(o, t)` is `∑ c, A[o, c] · B[c, t]`. -/
def mm {M K N : ℕ} (A : Mat M K) (B : Mat K N) : Mat M N :=
  fun i => ∑ c : Fin K, A (ix2 (i 0) c) * B (ix2 c (i 1))

theorem mm_at {M K N : ℕ} (A : Mat M K) (B : Mat K N) (o : Fin M) (t : Fin N) :
    mm A B (ix2 o t) = ∑ c : Fin K, A (ix2 o c) * B (ix2 c t) := rfl

/-- A layer's epilogue with the self-loop weight a column `[N, 1]` and the bias a row `[1, F]`:
    entry `(r, j)` is `max ((agg[r, j] + h[r, j] · sn[r, 0]) + b[0, j], 0)`. -/
def conv2 {N F : ℕ} (agg h : Mat N F) (sn : Mat N 1) (b : Mat 1 F) : Mat N F :=
  fun i => FloatOps.maximumf
    (FloatOps.addf (FloatOps.addf (agg i) (FloatOps.mulf (h i) (sn (ix2 (i 0) 0)))) (b (ix2 0 (i 1))))
    (FloatOps.ofBits .f32 0x00000000#32)

/-- The same epilogue with the self-loop weight and the bias plain vectors. -/
def conv {N F : ℕ} (agg h : Mat N F) (sn : Row N) (b : Row F) : Mat N F :=
  fun i => FloatOps.maximumf
    (FloatOps.addf (FloatOps.addf (agg i) (FloatOps.mulf (h i) (sn (ix1 (i 0))))) (b (ix1 (i 1))))
    (FloatOps.ofBits .f32 0x00000000#32)

/-- A column that repeats a vector, and a row that repeats a vector, give the same epilogue. -/
theorem conv2_eq_conv {N F : ℕ} (agg h : Mat N F) (sn2 : Mat N 1) (b2 : Mat 1 F) (sn : Row N) (b : Row F)
    (hsn : ∀ r : Fin N, sn2 (ix2 r 0) = sn (ix1 r)) (hb : ∀ j : Fin F, b2 (ix2 0 j) = b (ix1 j)) :
    conv2 agg h sn2 b2 = conv agg h sn b := by
  funext i
  unfold conv2 conv
  have e1 : sn2 (ix2 (i 0) 0) = sn (ix1 (i 0)) := hsn (i 0)
  have e2 : b2 (ix2 0 (i 1)) = b (ix1 (i 1)) := hb (i 1)
  rw [e1, e2]

/-- The read-out with the bias a `[1, 1]` matrix: entry `(r, 0)` is `(h·Wl)[r, 0] + bl[0, 0]`. -/
def out2 {N K : ℕ} (h : Mat N K) (Wl : Mat K 1) (bl : Mat 1 1) : Mat N 1 :=
  fun i => FloatOps.addf (mm h Wl i) (bl (ix2 0 0))

/-- The read-out with the bias a one-entry vector. -/
def out {N K : ℕ} (h : Mat N K) (Wl : Mat K 1) (bl : Row 1) : Mat N 1 :=
  fun i => FloatOps.addf (mm h Wl i) (bl (ix1 0))

theorem out2_eq_out {N K : ℕ} (h : Mat N K) (Wl : Mat K 1) (bl2 : Mat 1 1) (bl : Row 1)
    (hbl : bl2 (ix2 0 0) = bl (ix1 0)) : out2 h Wl bl2 = out h Wl bl := by
  funext i
  unfold out2 out
  rw [hbl]

/-- One layer: the product, its aggregate, the epilogue. -/
def layer {N K F : ℕ} (agg : Mat N F → Mat N F) (sn : Row N) (h : Mat N K) (W : Mat K F) (b : Row F) : Mat N F :=
  conv (agg (mm h W)) (mm h W) sn b

/-- The whole network: two layers and the read-out. -/
def net {N K F : ℕ} (agg₁ agg₂ : Mat N F → Mat N F) (sn : Row N) (x : Mat N K) (W₁ : Mat K F) (b₁ : Row F)
    (W₂ : Mat F F) (b₂ : Row F) (Wl : Mat F 1) (bl : Row 1) : Mat N 1 :=
  out (layer agg₂ sn (layer agg₁ sn x W₁ b₁) W₂ b₂) Wl bl

end Cert.Spec

end
-- ==== Proof.Keep.lean ====
/-
  What the host stretches and the kernel regions of the idealized kernel program LEAVE ALONE.

  The program runs: a host stretch, the first product, a host stretch, the first epilogue, the second product, a host
  stretch, the second epilogue, a one-operation host stretch, the read-out. A host stretch changes only the buffers
  its operations write; a region changes only its output array. So a value computed early (the edge endpoints, the
  edge weights, the self-loop column, a product) and every argument array are found unchanged by each later reader.
  Each fact here says: at this boundary, this buffer still holds what that earlier boundary (or the launch) held.
  They hold whatever the float values are.
-/
import proofs.«148656_j75290776698947_1_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The first host stretch writes no argument -/

theorem W1_arg0 : W1 m ρ c (Proc.devRef .tc main_arg0) = m ((c : Thread nD τ).loc main_arg0) := by
  dsimp only [W1]; after_results <;> rfl
theorem W1_arg2 : W1 m ρ c (Proc.devRef .tc main_arg2) = m ((c : Thread nD τ).loc main_arg2) := by
  dsimp only [W1]; after_results <;> rfl
theorem W1_arg3 : W1 m ρ c (Proc.devRef .tc main_arg3) = m ((c : Thread nD τ).loc main_arg3) := by
  dsimp only [W1]; after_results <;> rfl
theorem W1_arg4 : W1 m ρ c (Proc.devRef .tc main_arg4) = m ((c : Thread nD τ).loc main_arg4) := by
  dsimp only [W1]; after_results <;> rfl

/-! ## The first product writes only its result -/

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v25 : W2 m ρ c (Proc.devRef .tc main_v25) = W1 m ρ c (Proc.devRef .tc main_v25) := W2_of_ne m ρ c main_v25 (by decide)
theorem W2_v27 : W2 m ρ c (Proc.devRef .tc main_v27) = W1 m ρ c (Proc.devRef .tc main_v27) := W2_of_ne m ρ c main_v27 (by decide)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)

/-! ## The second host stretch keeps the endpoints, the weights, the self-loop column, the product and `W₂` -/

theorem W3_v1 : W3 m ρ c (Proc.devRef .tc main_v1) = W1 m ρ c (Proc.devRef .tc main_v1) :=
  (show W3 m ρ c (Proc.devRef .tc main_v1) = W2 m ρ c (Proc.devRef .tc main_v1) by dsimp only [W3]; after_results <;> rfl).trans (W2_v1 m ρ c)
theorem W3_v3 : W3 m ρ c (Proc.devRef .tc main_v3) = W1 m ρ c (Proc.devRef .tc main_v3) :=
  (show W3 m ρ c (Proc.devRef .tc main_v3) = W2 m ρ c (Proc.devRef .tc main_v3) by dsimp only [W3]; after_results <;> rfl).trans (W2_v3 m ρ c)
theorem W3_v25 : W3 m ρ c (Proc.devRef .tc main_v25) = W1 m ρ c (Proc.devRef .tc main_v25) :=
  (show W3 m ρ c (Proc.devRef .tc main_v25) = W2 m ρ c (Proc.devRef .tc main_v25) by dsimp only [W3]; after_results <;> rfl).trans (W2_v25 m ρ c)
theorem W3_v27 : W3 m ρ c (Proc.devRef .tc main_v27) = W1 m ρ c (Proc.devRef .tc main_v27) :=
  (show W3 m ρ c (Proc.devRef .tc main_v27) = W2 m ρ c (Proc.devRef .tc main_v27) by dsimp only [W3]; after_results <;> rfl).trans (W2_v27 m ρ c)
theorem W3_v28 : W3 m ρ c (Proc.devRef .tc main_v28) = W2 m ρ c (Proc.devRef .tc main_v28) := by
  dsimp only [W3]; after_results <;> rfl
theorem W3_arg4 : W3 m ρ c (Proc.devRef .tc main_arg4) = m ((c : Thread nD τ).loc main_arg4) :=
  (show W3 m ρ c (Proc.devRef .tc main_arg4) = W2 m ρ c (Proc.devRef .tc main_arg4) by dsimp only [W3]; after_results <;> rfl).trans (W2_arg4 m ρ c)

/-! ## The first epilogue writes only its result (the self-loop column is one of its inputs) -/

theorem W4_v1 : W4 m ρ c (Proc.devRef .tc main_v1) = W1 m ρ c (Proc.devRef .tc main_v1) :=
  (W4_of_ne m ρ c main_v1 (by decide)).trans (W3_v1 m ρ c)
theorem W4_v3 : W4 m ρ c (Proc.devRef .tc main_v3) = W1 m ρ c (Proc.devRef .tc main_v3) :=
  (W4_of_ne m ρ c main_v3 (by decide)).trans (W3_v3 m ρ c)
theorem W4_v25 : W4 m ρ c (Proc.devRef .tc main_v25) = W1 m ρ c (Proc.devRef .tc main_v25) :=
  (W4_of_ne m ρ c main_v25 (by decide)).trans (W3_v25 m ρ c)
theorem W4_v27 : W4 m ρ c (Proc.devRef .tc main_v27) = W1 m ρ c (Proc.devRef .tc main_v27) :=
  ((W4_arr m ρ c 2).trans (((dat1 (V3 m ρ) c).arrAt_in 2 rfl _).trans (A_eq1 (V3 m ρ) c 2))).trans (W3_v27 m ρ c)
theorem W4_arg4 : W4 m ρ c (Proc.devRef .tc main_arg4) = m ((c : Thread nD τ).loc main_arg4) :=
  (W4_of_ne m ρ c main_arg4 (by decide)).trans (W3_arg4 m ρ c)

/-! ## The second product writes only its result -/

theorem W5_v1 : W5 m ρ c (Proc.devRef .tc main_v1) = W1 m ρ c (Proc.devRef .tc main_v1) :=
  (W5_of_ne m ρ c main_v1 (by decide)).trans (W4_v1 m ρ c)
theorem W5_v3 : W5 m ρ c (Proc.devRef .tc main_v3) = W1 m ρ c (Proc.devRef .tc main_v3) :=
  (W5_of_ne m ρ c main_v3 (by decide)).trans (W4_v3 m ρ c)
theorem W5_v25 : W5 m ρ c (Proc.devRef .tc main_v25) = W1 m ρ c (Proc.devRef .tc main_v25) :=
  (W5_of_ne m ρ c main_v25 (by decide)).trans (W4_v25 m ρ c)
theorem W5_v27 : W5 m ρ c (Proc.devRef .tc main_v27) = W1 m ρ c (Proc.devRef .tc main_v27) :=
  (W5_of_ne m ρ c main_v27 (by decide)).trans (W4_v27 m ρ c)

/-! ## The third host stretch keeps the self-loop column and the second product -/

theorem W6_v27 : W6 m ρ c (Proc.devRef .tc main_v27) = W1 m ρ c (Proc.devRef .tc main_v27) :=
  (show W6 m ρ c (Proc.devRef .tc main_v27) = W5 m ρ c (Proc.devRef .tc main_v27) by dsimp only [W6]; after_results <;> rfl).trans (W5_v27 m ρ c)
theorem W6_v44 : W6 m ρ c (Proc.devRef .tc main_v44) = W5 m ρ c (Proc.devRef .tc main_v44) := by
  dsimp only [W6]; after_results <;> rfl

/-! ## The last host stretch keeps the second layer's result -/

theorem W8_v59 : W8 m ρ c (Proc.devRef .tc main_v59) = W7 m ρ c (Proc.devRef .tc main_v59) := by
  dsimp only [W8]; after_results <;> rfl

/-! ## The late arguments, read back from the end of the run: every argument ends as launched, and nothing between
    its reader and the end writes it -/

theorem W8_arg6 : W8 m ρ c (Proc.devRef .tc main_arg6) = m ((c : Thread nD τ).loc main_arg6) :=
  ((W9_arr m ρ c 1).trans (((dat4 (V8 m ρ) c).arrAt_in 1 rfl _).trans (A_eq4 (V8 m ρ) c 1))).symm.trans (W9_main_arg6 m ρ c)

theorem W7_arg7 : W7 m ρ c (Proc.devRef .tc main_arg7) = m ((c : Thread nD τ).loc main_arg7) :=
  ((W9_of_ne m ρ c main_arg7 (by decide)).trans
    (show W8 m ρ c (Proc.devRef .tc main_arg7) = W7 m ρ c (Proc.devRef .tc main_arg7) by dsimp only [W8]; after_results <;> rfl)).symm.trans
    (W9_main_arg7 m ρ c)

theorem W5_arg5 : W5 m ρ c (Proc.devRef .tc main_arg5) = m ((c : Thread nD τ).loc main_arg5) :=
  ((((W9_of_ne m ρ c main_arg5 (by decide)).trans
    (show W8 m ρ c (Proc.devRef .tc main_arg5) = W7 m ρ c (Proc.devRef .tc main_arg5) by dsimp only [W8]; after_results <;> rfl)).trans
    (W7_of_ne m ρ c main_arg5 (by decide))).trans
    (show W6 m ρ c (Proc.devRef .tc main_arg5) = W5 m ρ c (Proc.devRef .tc main_arg5) by dsimp only [W6]; after_results <;> rfl)).symm.trans
    (W9_main_arg5 m ρ c)

end Cert.KernelIdeal.Keep

end
-- ==== Proof.RefValue.lean ====
import proofs.«148656_j75290776698947_1_alg».proof.Proof.Gen.ReferenceIdeal.Read
import proofs.«148656_j75290776698947_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The first layer's message-passing aggregate of a node-feature matrix `h`, for the edge list `e`: gather the
    source rows of `h`, scale each edge's row by the edge weight, add the rows into their target nodes. -/
def agg₁ (e : (⟨S2x600000, .i32⟩ : BufTy).Contents (Elt Ideal)) (h : Cert.Spec.Mat 50000 128) : Cert.Spec.Mat 50000 128 :=
  Host.scatterAdd scatter_S50000x128_S600000x1_S600000x128_1_0_0_1 (val_main_v38 (F := Ideal)) (val_main_v39 (F := Ideal) e)
    (mulf (Host.gather gather_S50000x128_S600000x1_S600000x128_1_0_n_n_0_1_1128 h (val_main_v33 (F := Ideal) e)) (val_main_v36 (F := Ideal) e))

/-- The second layer's aggregate: the same operations, as the program spells them the second time. -/
def agg₂ (e : (⟨S2x600000, .i32⟩ : BufTy).Contents (Elt Ideal)) (h : Cert.Spec.Mat 50000 128) : Cert.Spec.Mat 50000 128 :=
  Host.scatterAdd scatter_S50000x128_S600000x1_S600000x128_1_0_0_1 (val_main_v60 (F := Ideal)) (val_main_v61 (F := Ideal) e)
    (mulf (Host.gather gather_S50000x128_S600000x1_S600000x128_1_0_n_n_0_1_1128 h (val_main_v55 (F := Ideal) e)) (val_main_v58 (F := Ideal) e))

/-- The first product: entry `(r, j)` of `x·W₁` is the sum over the contracted axis. -/
theorem prod₁ (x0 : (⟨S50000x256, .f32⟩ : BufTy).Contents (Elt Ideal)) (x2 : (⟨S256x128, .f32⟩ : BufTy).Contents (Elt Ideal)) :
    val_main_v27 (F := Ideal) x0 x2 = Cert.Spec.mm x0 x2 := by
  funext i
  rw [val_main_v27_apply]
  unfold Cert.Spec.mm
  refine Finset.sum_congr rfl fun k _ => ?_
  have el : lidx_main_v27 i k = ix2 (i 0) k :=
    funext fun a => Fin.ext (by match a with | ⟨0, _⟩ => rfl | ⟨1, _⟩ => rfl)
  have er : ridx_main_v27 i k = ix2 k (i 1) :=
    funext fun a => Fin.ext (by match a with | ⟨0, _⟩ => rfl | ⟨1, _⟩ => rfl)
  rw [el, er]
  rfl

/-- The first aggregate is the scatter of the scaled gather of the first product, as the program spells it. -/
theorem agg₁_eq (x0 : (⟨S50000x256, .f32⟩ : BufTy).Contents (Elt Ideal)) (x1 : (⟨S2x600000, .i32⟩ : BufTy).Contents (Elt Ideal))
    (x2 : (⟨S256x128, .f32⟩ : BufTy).Contents (Elt Ideal)) :
    val_main_v40 (F := Ideal) x0 x1 x2 = agg₁ x1 (val_main_v27 (F := Ideal) x0 x2) := by
  unfold val_main_v40 val_main_v37 val_main_v34 agg₁
  rfl

/-- The first layer: the epilogue reads the aggregate and the product at the entry, the self-loop weight at the
    entry's row and the bias at the entry's column. -/
theorem layer₁ (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal)) :
    val_main_v48 (F := Ideal) x0 x1 x2 x3
      = Cert.Spec.layer (agg₁ x1) (val_main_v26 (F := Ideal) x1) x0 x2 x3 := by
  funext i
  rw [val_main_v48_apply, val_main_v47_apply, val_main_v44_apply, val_main_v43_apply, val_main_v42_apply,
    val_main_v41_apply, val_main_v46_apply, val_main_v45_apply, val_main_call0_v0_apply, val_main_call0_cst_apply,
    agg₁_eq, prod₁]
  have e1 : idx_main_v41 (idx_main_v42 i) = ix1 (i 0) :=
    funext fun a => Fin.ext (by match a with | ⟨0, _⟩ => rfl)
  have e2 : idx_main_v45 (idx_main_v46 i) = ix1 (i 1) :=
    funext fun a => Fin.ext (by match a with | ⟨0, _⟩ => rfl)
  rw [e1, e2]
  unfold Cert.Spec.layer Cert.Spec.conv
  generalize Cert.Spec.mm x0 x2 = H
  generalize agg₁ x1 H = A
  rfl

/-- The second product: the first layer's result times `W₂`. -/
theorem prod₂ (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) :
    val_main_v49 (F := Ideal) x0 x1 x2 x3 x4 = Cert.Spec.mm (val_main_v48 (F := Ideal) x0 x1 x2 x3) x4 := by
  funext i
  rw [val_main_v49_apply]
  generalize val_main_v48 (F := Ideal) x0 x1 x2 x3 = h
  unfold Cert.Spec.mm
  refine Finset.sum_congr rfl fun k _ => ?_
  have el : lidx_main_v49 i k = ix2 (i 0) k :=
    funext fun a => Fin.ext (by match a with | ⟨0, _⟩ => rfl | ⟨1, _⟩ => rfl)
  have er : ridx_main_v49 i k = ix2 k (i 1) :=
    funext fun a => Fin.ext (by match a with | ⟨0, _⟩ => rfl | ⟨1, _⟩ => rfl)
  rw [el, er]
  rfl

/-- The second aggregate is the scatter of the scaled gather of the second product, as the program spells it. -/
theorem agg₂_eq (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) :
    val_main_v62 (F := Ideal) x0 x1 x2 x3 x4 = agg₂ x1 (val_main_v49 (F := Ideal) x0 x1 x2 x3 x4) := by
  unfold val_main_v62 val_main_v59 val_main_v56 agg₂
  rfl

/-- The second layer: the same epilogue over the second product and its aggregate, with the bias `b₂`. -/
theorem layer₂ (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v70 (F := Ideal) x0 x1 x2 x3 x4 x5
      = Cert.Spec.layer (agg₂ x1) (val_main_v26 (F := Ideal) x1) (val_main_v48 (F := Ideal) x0 x1 x2 x3) x4 x5 := by
  funext i
  rw [val_main_v70_apply, val_main_v69_apply, val_main_v66_apply, val_main_v65_apply, val_main_v64_apply,
    val_main_v63_apply, val_main_v68_apply, val_main_v67_apply, val_main_call1_v0_apply, val_main_call1_cst_apply,
    agg₂_eq, prod₂]
  have e1 : idx_main_v63 (idx_main_v64 i) = ix1 (i 0) :=
    funext fun a => Fin.ext (by match a with | ⟨0, _⟩ => rfl)
  have e2 : idx_main_v67 (idx_main_v68 i) = ix1 (i 1) :=
    funext fun a => Fin.ext (by match a with | ⟨0, _⟩ => rfl)
  rw [e1, e2]
  unfold Cert.Spec.layer Cert.Spec.conv
  generalize Cert.Spec.mm (val_main_v48 (F := Ideal) x0 x1 x2 x3) x4 = H
  generalize agg₂ x1 H = A
  rfl

/-- The read-out's product: the second layer's result times `Wl`. -/
theorem prod₃ (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) :
    val_main_v71 (F := Ideal) x0 x1 x2 x3 x4 x5 x6 = Cert.Spec.mm (val_main_v70 (F := Ideal) x0 x1 x2 x3 x4 x5) x6 := by
  funext i
  rw [val_main_v71_apply]
  generalize val_main_v70 (F := Ideal) x0 x1 x2 x3 x4 x5 = h
  unfold Cert.Spec.mm
  refine Finset.sum_congr rfl fun k _ => ?_
  have el : lidx_main_v71 i k = ix2 (i 0) k :=
    funext fun a => Fin.ext (by match a with | ⟨0, _⟩ => rfl | ⟨1, _⟩ => rfl)
  have er : ridx_main_v71 i k = ix2 k (i 1) :=
    funext fun a => Fin.ext (by match a with | ⟨0, _⟩ => rfl | ⟨1, _⟩ => rfl)
  rw [el, er]
  rfl

/-- The read-out: the product plus the one-entry bias, repeated down the column. -/
theorem out₁ (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    val_main_v74 (F := Ideal) x0 x1 x2 x3 x4 x5 x6 x7
      = Cert.Spec.out (val_main_v70 (F := Ideal) x0 x1 x2 x3 x4 x5) x6 x7 := by
  funext i
  rw [val_main_v74_apply, val_main_v73_apply, val_main_v72_apply, prod₃]
  have e : idx_main_v72 (idx_main_v73 i) = ix1 0 :=
    funext fun a => Fin.ext (by match a with | ⟨0, _⟩ => rfl)
  rw [e]
  unfold Cert.Spec.out
  generalize Cert.Spec.mm (val_main_v70 (F := Ideal) x0 x1 x2 x3 x4 x5) x6 = H
  rfl

/-- The reference's result is the network, with its own aggregates and the self-loop weight `dinv²`. -/
theorem ref_value (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    val_main_v74 (F := Ideal) x0 x1 x2 x3 x4 x5 x6 x7
      = Cert.Spec.net (agg₁ x1) (agg₂ x1) (val_main_v26 (F := Ideal) x1) x0 x2 x3 x4 x5 x6 x7 := by
  unfold Cert.Spec.net
  rw [out₁, layer₂, layer₁]

end Cert.ReferenceIdeal.RefValue

end
-- ==== Proof.HostValues.lean ====
/-
  What the host stretches of the idealized kernel program COMPUTE, named by the reference program's own stages.

  Both programs apply the same host operations to the edge list: split it into source and target endpoints, count the
  in-degrees by a scatter-add of ones, take `dinv = rsqrt (1 + degree)`, form the edge weight `dinv[src] · dinv[dst]`
  and the self-loop weight `dinv²`; and, per layer, wrap the source endpoints, gather those rows of the product,
  scale each by its edge weight, and scatter-add them into the target rows of a zero matrix. Read off the kernel
  program's operation lists, each of these values IS the corresponding stage of the reference (the same operation
  applied to the same operands), so each equation below is closed by unfolding the two spellings; no gather or scatter
  is ever opened. The reshapes of a vector to a column `[N, 1]` or to a row `[1, F]` are read at an entry.
-/
import proofs.«148656_j75290776698947_1_alg».proof.Proof.Gen.KernelIdeal.Frame
import proofs.«148656_j75290776698947_1_alg».proof.Proof.Keep
import proofs.«148656_j75290776698947_1_alg».proof.Proof.RefValue
import Idealize.ShloMosaic.Lib.StableHlo.Run
import Idealize.ShloMosaic.Lib.Pipeline.Value
import Idealize.ShloMosaic.Lib.ValueLayout

set_option maxRecDepth 16384

noncomputable section

namespace Cert.KernelIdeal.HostValues

open Cert.KernelIdeal Cert.KernelIdeal.Gen
open Idealize.ShloMosaic Idealize.ShloMosaic.TcCoe Idealize.ShloMosaic.ValueIdx Idealize.SL.Sem Idealize.ShloMosaic.StableHlo

/-- A vector cast to a column `[n, 1]` reads, at `(r, 0)`, the vector at `r`: the two entries have the same
    row-major position. -/
theorem shapeCast_col {α : Type} {n : ℕ} (y : (⟨1, ![n]⟩ : Shape).Idx → α)
    (h : (⟨1, ![n]⟩ : Shape).ShapeCasts ⟨2, ![n, 1]⟩) (r : Fin n) :
    shapeCast ⟨2, ![n, 1]⟩ y h (ix2 r (0 : Fin 1)) = y (ix1 r) :=
  shapeCast_apply y h _ _ (by
    rw [Shape.rowMajor_val_two, Shape.rowMajor_val_one]
    show r.val = r.val * 1 + 0
    omega)

variable (m : (ℓ : Loc nD τ sig) → Buf (Elt Ideal) ℓ) (ρ : Dev nD → PrngReg) (c : Dev nD)

/-! ## After the first host stretch -/

set_option maxHeartbeats 4000000 in
/-- The source endpoints. -/
theorem W1_v1 : W1 m ρ c (Proc.devRef .tc main_v1) = Cert.ReferenceIdeal.Read.val_main_v1 (F := Ideal) (m ((c : Thread nD τ).loc main_arg1)) := by
  dsimp only [W1]; after_results; rfl

set_option maxHeartbeats 4000000 in
/-- The target endpoints. -/
theorem W1_v3 : W1 m ρ c (Proc.devRef .tc main_v3) = Cert.ReferenceIdeal.Read.val_main_v3 (F := Ideal) (m ((c : Thread nD τ).loc main_arg1)) := by
  dsimp only [W1]; after_results; rfl

set_option maxHeartbeats 4000000 in
/-- The edge weights `dinv[src] · dinv[dst]`. -/
theorem W1_v25 : W1 m ρ c (Proc.devRef .tc main_v25) = Cert.ReferenceIdeal.Read.val_main_v25 (F := Ideal) (m ((c : Thread nD τ).loc main_arg1)) := by
  dsimp only [W1]; after_results; rfl

set_option maxHeartbeats 4000000 in
/-- The self-loop weights `dinv²`, as a column. -/
theorem W1_v27 : W1 m ρ c (Proc.devRef .tc main_v27)
    = shapeCast S50000x1 (Cert.ReferenceIdeal.Read.val_main_v26 (F := Ideal) (m ((c : Thread nD τ).loc main_arg1))) shapeCasts_S50000_S50000x1 := by
  dsimp only [W1]; after_results; rfl

/-- The self-loop column at `(r, 0)` is `dinv²` at `r`. -/
theorem W1_v27_col (r : Fin 50000) :
    (W1 m ρ c (Proc.devRef .tc main_v27) : Cert.Spec.Mat 50000 1) (ix2 r 0)
      = (Cert.ReferenceIdeal.Read.val_main_v26 (F := Ideal) (m ((c : Thread nD τ).loc main_arg1)) : Cert.Spec.Row 50000) (ix1 r) := by
  rw [W1_v27]
  exact shapeCast_col _ _ r

/-! ## After the second host stretch -/

set_option maxHeartbeats 4000000 in
/-- The first layer's aggregate of the first product. -/
theorem W3_v41 : W3 m ρ c (Proc.devRef .tc main_v41)
    = Cert.ReferenceIdeal.RefValue.agg₁ (m ((c : Thread nD τ).loc main_arg1)) (W2 m ρ c (Proc.devRef .tc main_v28)) := by
  dsimp only [W3]; after_results
  rw [Keep.W2_v1, Keep.W2_v3, Keep.W2_v25, W1_v1, W1_v3, W1_v25]
  rfl

set_option maxHeartbeats 4000000 in
/-- The first bias, as a row. -/
theorem W3_v42 : W3 m ρ c (Proc.devRef .tc main_v42)
    = shapeCast S1x128 (m ((c : Thread nD τ).loc main_arg3)) shapeCasts_S128_S1x128 := by
  dsimp only [W3]; after_results
  rw [Keep.W2_arg3]
  rfl

/-- The first bias row at `(0, j)` is the bias at `j`. -/
theorem W3_v42_row (j : Fin 128) :
    (W3 m ρ c (Proc.devRef .tc main_v42) : Cert.Spec.Mat 1 128) (ix2 0 j)
      = (m ((c : Thread nD τ).loc main_arg3) : Cert.Spec.Row 128) (ix1 j) := by
  rw [W3_v42]
  exact shapeCast_a_1a_apply _ _ 0 j

/-! ## After the third host stretch -/

set_option maxHeartbeats 4000000 in
/-- The second layer's aggregate of the second product. -/
theorem W6_v57 : W6 m ρ c (Proc.devRef .tc main_v57)
    = Cert.ReferenceIdeal.RefValue.agg₂ (m ((c : Thread nD τ).loc main_arg1)) (W5 m ρ c (Proc.devRef .tc main_v44)) := by
  dsimp only [W6]; after_results
  rw [Keep.W5_v1, Keep.W5_v3, Keep.W5_v25, W1_v1, W1_v3, W1_v25]
  rfl

set_option maxHeartbeats 4000000 in
/-- The second bias, as a row. -/
theorem W6_v58 : W6 m ρ c (Proc.devRef .tc main_v58)
    = shapeCast S1x128 (m ((c : Thread nD τ).loc main_arg5)) shapeCasts_S128_S1x128 := by
  dsimp only [W6]; after_results
  rw [Keep.W5_arg5]
  rfl

/-- The second bias row at `(0, j)` is the bias at `j`. -/
theorem W6_v58_row (j : Fin 128) :
    (W6 m ρ c (Proc.devRef .tc main_v58) : Cert.Spec.Mat 1 128) (ix2 0 j)
      = (m ((c : Thread nD τ).loc main_arg5) : Cert.Spec.Row 128) (ix1 j) := by
  rw [W6_v58]
  exact shapeCast_a_1a_apply _ _ 0 j

/-! ## After the last host stretch -/

set_option maxHeartbeats 4000000 in
/-- The read-out's bias, as a `[1, 1]` matrix. -/
theorem W8_v60 : W8 m ρ c (Proc.devRef .tc main_v60)
    = shapeCast S1x1 (m ((c : Thread nD τ).loc main_arg7)) shapeCasts_S1_S1x1 := by
  dsimp only [W8]; after_results
  rw [Keep.W7_arg7]
  rfl

/-- Its one entry is the bias's one entry. -/
theorem W8_v60_at :
    (W8 m ρ c (Proc.devRef .tc main_v60) : Cert.Spec.Mat 1 1) (ix2 0 0)
      = (m ((c : Thread nD τ).loc main_arg7) : Cert.Spec.Row 1) (ix1 0) := by
  rw [W8_v60]
  exact shapeCast_a_1a_apply _ _ 0 0

end Cert.KernelIdeal.HostValues

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Region0.lean ====
import proofs.«148656_j75290776698947_1_alg».proof.Proof.Gen.KernelIdeal.Frame
import proofs.«148656_j75290776698947_1_alg».proof.Proof.Spec
import proofs.«148656_j75290776698947_1_alg».proof.Proof.LibMatmulAt
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One grid point: a 5000-row block of the product

The grid has ten points. At point `t` the left operand's block is rows `5000·t … 5000·t + 4999` of the
`[50000, 256]` array (all 256 columns), the right operand's block is the whole `[256, 128]` array, and the
result's block is rows `5000·t … 5000·t + 4999` of the `[50000, 128]` array. The body multiplies the two
blocks into a zero accumulator, so entry `(p, q)` of the result's block is `∑ k, x[5000·t + p, k] · W[k, q]`:
entry `(5000·t + p, q)` of the whole product. -/

/-- The zero offset of a rank-two rectangle, in its two spellings. -/
theorem zero_off : (![0, 0] : Fin 2 → Nat) = fun _ => 0 := funext fun a => by fin_cases a <;> rfl

/-- The body's result at entry `(p, q)`: the contraction of row `p` of the left block with column `q` of the
    right block. The operands' change of float format changes no ideal value, and the accumulator is zero. -/
theorem body_at (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Cert.LibMatmulAt.matmul_zero_at dot_S5000x256_S256x128_S5000x128_1_0_0_1_n_n rfl rfl rfl rfl rfl rfl none _ _ p q

/-- The block indices at point `t`, on each axis: the left operand's and the result's blocks are the `t`-th
    along the rows and the only one along the columns; the right operand's block is the only one on both. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t`, at `(p, k)`, is the array at `(5000·t + p, k)`: an element of a
    block sits at block index × block size + its coordinate inside the block, on each axis. -/
theorem left_block_at (c : Dev nD) (t : Fin cfg0.N) (x : S5000x256.Idx) (k : S50000x256.Idx)
    (hk0 : (k 0).val = t.val * 5000 + (x 0).val) (hk1 : (k 1).val = (x 1).val) :
    (iblk0 V c 0 t : Vec Ideal S5000x256 .f32) x = (V c main_arg0 : S50000x256.Idx → Elt Ideal .f32) k := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 256 + 1 * (x 1).val = (k 1).val; rw [e1, hk1]; omega

/-- The right operand's block at every point is the whole array: its block index is zero on both axes. -/
theorem right_block_at (c : Dev nD) (t : Fin cfg0.N) (x : S256x128.Idx) :
    (iblk0 V c 1 t : Vec Ideal S256x128 .f32) x = (V c main_arg2 : S256x128.Idx → Elt Ideal .f32) x := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t 0 * 256 + 1 * (x 0).val = (x 0).val; rw [e0]; omega
  | ⟨1, _⟩ => show win0_1.index t 1 * 128 + 1 * (x 1).val = (x 1).val; rw [e1]; omega

/-- A block of rows of the product. If `x0` is rows `5000·n …` of `A` and `x1` is all of `B`, the body's result
    at `y = (p, q)` is `A·B` at `i = (5000·n + p, q)`: both are `∑ k, A[5000·n + p, k] · B[k, q]`, term by term. -/
theorem block_entry (A : Cert.Spec.Mat 50000 256) (B : Cert.Spec.Mat 256 128)
    (x0 : Vec Ideal S5000x256 .f32) (x1 : Vec Ideal S256x128 .f32) (n : ℕ)
    (h0 : ∀ (x : S5000x256.Idx) (k : S50000x256.Idx), (k 0).val = n * 5000 + (x 0).val → (k 1).val = (x 1).val → x0 x = A k)
    (h1 : ∀ x : S256x128.Idx, x1 x = B x)
    (y : S5000x128.Idx) (i : S50000x128.Idx) (hi0 : (i 0).val = n * 5000 + (y 0).val) (hi1 : (i 1).val = (y 1).val) :
    k0_pay1 x0 x1 y = Cert.Spec.mm A B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  rw [body_at, Cert.Spec.mm_at]
  refine Finset.sum_congr rfl fun k _ => ?_
  rw [h0 (ix2 p k) (ix2 r k) hi0 rfl, h1]

/-! ## From the ten blocks to the array -/

/-- What point `t` writes back is block `t` of the product of the two input arrays: the body stores its result
    over the whole staging buffer, having loaded the two input blocks whole, and the block's element `(p, q)`
    sits in the result array at `(5000·t + p, q)`. -/
theorem written_block (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zero_off]
  simp only [View.ld_unit_zero (S := S5000x256) zero_off, View.ld_unit_zero (S := S256x128) zero_off]
  obtain ⟨-, -, -, -, e0, e1⟩ := block_indices t
  funext j
  rw [View.read_apply]
  refine block_entry (V c main_arg0) (V c main_arg2) (iblk0 V c 0 t) (iblk0 V c 1 t) t.val
    (fun x k h0 h1 => left_block_at V c t x k h0 h1) (right_block_at V c t) _ _ ?_ ?_
  · show win0_2.index t 0 * 5000 + 1 * (j 0).val = t.val * 5000 + (j 0).val
    rw [e0]; omega
  · show win0_2.index t 1 * 128 + 1 * (j 1).val = (j 1).val
    rw [e1]; omega

/-- An index of the result array is in point `t`'s block iff each coordinate is in the block's range on its axis. -/
theorem in_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- The ten blocks tile the 50000 rows: row `r` is in the block of point `r / 5000`, which is written back. -/
theorem every_row_written (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := rfl
  have ht : (i 0).val / 5000 < cfg0.N := by rw [hN]; omega
  obtain ⟨-, -, -, -, e0, e1⟩ := block_indices ⟨(i 0).val / 5000, ht⟩
  refine ⟨⟨(i 0).val / 5000, ht⟩, flush0_2 _, ?_⟩
  rw [in_block]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_2.index ⟨(i 0).val / 5000, ht⟩ 1 * 128 ≤ (i 1).val
      ∧ (i 1).val < win0_2.index ⟨(i 0).val / 5000, ht⟩ 1 * 128 + 128
    rw [e1]
    omega

/-- After the first product's ten row blocks are written back, the result array is the matrix product of the two
    input arrays as the region finds them. -/
theorem final0 (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => written_block V c t) every_row_written

end Cert.KernelIdeal.Region0

end
-- ==== Proof.Region1.lean ====
import proofs.«148656_j75290776698947_1_alg».proof.Proof.Gen.KernelIdeal.Frame
import proofs.«148656_j75290776698947_1_alg».proof.Proof.Spec
import proofs.«148656_j75290776698947_1_alg».proof.Proof.LibMatmulAt
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block offset vector of a store at the buffer's origin. -/
theorem hz : (![0, 0] : Fin 2 → Nat) = fun _ => 0 := funext fun a => by fin_cases a <;> rfl

/-- The body's arithmetic read at row `p`, column `q` of a block: the two identity casts drop out, the self-loop column is
    read at `(p, 0)` and the bias row at `(0, q)` (a broadcast reads the operand at coordinate `0` on its unit axes), and every
    other operation acts entry by entry. -/
theorem pay_at (x0 x1 : FVec Ideal S5000x128 .f32) (x2 : FVec Ideal S5000x1 .f32) (x3 : FVec Ideal S1x128 .f32)
    (p : Fin 5000) (q : Fin 128) :
    k1_pay1 (F := Ideal) x0 x1 x2 x3 (ix2 p q)
      = FloatOps.maximumf
          (FloatOps.addf (FloatOps.addf (x0 (ix2 p q)) (FloatOps.mulf (x1 (ix2 p q)) (x2 (ix2 p 0)))) (x3 (ix2 0 q)))
          (FloatOps.ofBits .f32 0x00000000#32) := by
  unfold k1_pay1
  simp only [shapeCast_self]
  have e2 : broadcastTo S5000x128 x2 broadcasts_S5000x1_S5000x128 (ix2 p q) = x2 (ix2 p 0) :=
    broadcastTo_apply x2 _ (ix2 p q) (ix2 p 0) (fun a => by
      match a with
      | ⟨0, _⟩ => rfl
      | ⟨1, _⟩ => rfl)
  have e3 : broadcastTo S5000x128 x3 broadcasts_S1x128_S5000x128 (ix2 p q) = x3 (ix2 0 q) :=
    broadcastTo_apply x3 _ (ix2 p q) (ix2 0 q) (fun a => by
      match a with
      | ⟨0, _⟩ => rfl
      | ⟨1, _⟩ => rfl)
  show FloatOps.maximumf (FloatOps.addf (FloatOps.addf (x0 (ix2 p q)) (FloatOps.mulf (x1 (ix2 p q))
      (broadcastTo S5000x128 x2 broadcasts_S5000x1_S5000x128 (ix2 p q))))
      (broadcastTo S5000x128 x3 broadcasts_S1x128_S5000x128 (ix2 p q))) _ = _
  rw [e2, e3]
  rfl

/-- The five index maps over the ten grid points: every row-tiled window's block index is `(t, 0)`, the bias row's is
    `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's arithmetic as one function of the block index. -/
theorem pay_eq (x0 x1 : FVec Ideal S5000x128 .f32) (x2 : FVec Ideal S5000x1 .f32) (x3 : FVec Ideal S1x128 .f32) :
    k1_pay1 (F := Ideal) x0 x1 x2 x3 = fun j : S5000x128.Idx =>
      FloatOps.maximumf
        (FloatOps.addf (FloatOps.addf (x0 j) (FloatOps.mulf (x1 j) (x2 (ix2 (j 0) 0)))) (x3 (ix2 0 (j 1))))
        (FloatOps.ofBits .f32 0x00000000#32) := by
  funext j
  obtain ⟨p, q, rfl⟩ : ∃ (p : Fin 5000) (q : Fin 128), j = ix2 p q := ⟨j 0, j 1, eq_ix2 j⟩
  exact pay_at x0 x1 x2 x3 p q

/-- What point `t` writes back is block `t` of the layer epilogue of the four input arrays: each input block's entry sits in
    its array at block index × block size + the coordinate inside the block, the row-tiled inputs move with the output,
    the self-loop column is read at the output's row and the bias row at the output's column. -/
theorem flushed_eq (c : Dev nD) (t : Fin cfg1.N) :
    (dat1 (F := Ideal) V c).flushed 4 t = ((cfg1.win 4).blk t).view.read (Elt Ideal)
      (Cert.Spec.conv2 (V c main_v41) (V c main_v28) (V c main_v27) (V c main_v42)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  rw [pay_eq]
  obtain ⟨e00, e01, e10, e11, e20, e21, e30, e31, e40, e41⟩ := idx_facts t
  funext j
  show FloatOps.maximumf (F := Ideal)
      (FloatOps.addf (F := Ideal)
        (FloatOps.addf (F := Ideal) (V c main_v41 (((cfg1.win 0).blk t).view.emb j))
          (FloatOps.mulf (F := Ideal) (V c main_v28 (((cfg1.win 1).blk t).view.emb j))
            (V c main_v27 (((cfg1.win 2).blk t).view.emb (ix2 (n0 := 5000) (n1 := 1) (j 0) 0)))))
        (V c main_v42 (((cfg1.win 3).blk t).view.emb (ix2 (n0 := 1) (n1 := 128) 0 (j 1)))))
      (FloatOps.ofBits (F := Ideal) .f32 0x00000000#32)
    = FloatOps.maximumf (F := Ideal)
      (FloatOps.addf (F := Ideal)
        (FloatOps.addf (F := Ideal) (V c main_v41 (((cfg1.win 4).blk t).view.emb j))
          (FloatOps.mulf (F := Ideal) (V c main_v28 (((cfg1.win 4).blk t).view.emb j))
            (V c main_v27 (ix2 (n0 := 50000) (n1 := 1) ((((cfg1.win 4).blk t).view.emb j) 0) 0))))
        (V c main_v42 (ix2 (n0 := 1) (n1 := 128) 0 ((((cfg1.win 4).blk t).view.emb j) 1))))
      (FloatOps.ofBits (F := Ideal) .f32 0x00000000#32)
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (ix2 (n0 := 5000) (n1 := 1) (j 0) 0)
      = (ix2 (n0 := 50000) (n1 := 1) ((((cfg1.win 4).blk t).view.emb j) 0) 0 : S50000x1.Idx) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (ix2 (n0 := 1) (n1 := 128) 0 (j 1))
      = (ix2 (n0 := 1) (n1 := 128) 0 ((((cfg1.win 4).blk t).view.emb j) 1) : S1x128.Idx) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h0, h1, h2, h3]

/-- An index of the result array lies in point `t`'s block iff each coordinate lies in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- The ten row blocks tile the fifty thousand rows: row `r` lies in the block of point `r / 5000`, and every point writes
    its block back. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < 10; omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After the first epilogue's ten row blocks are written back, the result array is the layer epilogue of the four
    input arrays as the region finds them. -/
theorem final1 (c : Dev nD) :
    (dat1 (F := Ideal) V c).arrAt 4 cfg1.N = Cert.Spec.conv2 (V c main_v41) (V c main_v28) (V c main_v27) (V c main_v42) :=
  (dat1 (F := Ideal) V c).arrAt_eq_of_cover 4
    (Cert.Spec.conv2 (V c main_v41) (V c main_v28) (V c main_v27) (V c main_v42))
    (fun t _ => flushed_eq V c t) cover

end Cert.KernelIdeal.Region1
end
-- ==== Proof.Region2.lean ====
import proofs.«148656_j75290776698947_1_alg».proof.Proof.Gen.KernelIdeal.Frame
import proofs.«148656_j75290776698947_1_alg».proof.Proof.Spec
import proofs.«148656_j75290776698947_1_alg».proof.Proof.LibMatmulAt
import Idealize.ShloMosaic.Lib.Pipeline.Value

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One grid point: a 5000-row block of the second product

The grid has ten points. At point `t` the left operand's block is rows `5000·t … 5000·t + 4999` of the
`[50000, 128]` hidden-feature array (all 128 columns), the right operand's block is the whole `[128, 128]`
weight array, and the result's block is rows `5000·t … 5000·t + 4999` of the `[50000, 128]` result array. The
body multiplies the two blocks into a zero accumulator, so entry `(p, q)` of the result's block is
`∑ k, h[5000·t + p, k] · W[k, q]`: entry `(5000·t + p, q)` of the whole product. -/

/-- The zero offset of a rank-two rectangle, in its two spellings. -/
theorem zero_off : (![0, 0] : Fin 2 → Nat) = fun _ => 0 := funext fun a => by fin_cases a <;> rfl

/-- The body's result at entry `(p, q)`: the contraction of row `p` of the left block with column `q` of the
    right block. Recasting the left block to its own shape is the identity, the operands' change of float format
    changes no ideal value, and the accumulator is zero. -/
theorem body_at (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  refine (Cert.LibMatmulAt.matmul_zero_at dot_S5000x128_S128x128_S5000x128_1_0_0_1_n_n rfl rfl rfl rfl rfl rfl none _ _ p q).trans ?_
  rw [shapeCast_self]
  rfl

/-- The block indices at point `t`, on each axis: the left operand's and the result's blocks are the `t`-th
    along the rows and the only one along the columns; the right operand's block is the only one on both. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t`, at `(p, k)`, is the array at `(5000·t + p, k)`: an element of a
    block sits at block index × block size + its coordinate inside the block, on each axis. -/
theorem left_block_at (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v43 : S50000x128.Idx → Elt Ideal .f32) k := by
  obtain ⟨e0, e1, -⟩ := block_indices t
  unfold iblk2
  rw [View.read_apply]
  show V c main_v43 _ = V c main_v43 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The right operand's block at every point is the whole array: its block index is zero on both axes. -/
theorem right_block_at (c : Dev nD) (t : Fin cfg2.N) (x : S128x128.Idx) :
    (iblk2 V c 1 t : Vec Ideal S128x128 .f32) x = (V c main_arg4 : S128x128.Idx → Elt Ideal .f32) x := by
  obtain ⟨-, -, e0, e1, -⟩ := block_indices t
  unfold iblk2
  rw [View.read_apply]
  show V c main_arg4 _ = V c main_arg4 _
  congr 1
  funext a
  apply Fin.ext
  match a with
  | ⟨0, _⟩ => show win2_1.index t 0 * 128 + 1 * (x 0).val = (x 0).val; rw [e0]; omega
  | ⟨1, _⟩ => show win2_1.index t 1 * 128 + 1 * (x 1).val = (x 1).val; rw [e1]; omega

/-- A block of rows of the product. If `x0` is rows `5000·n …` of `A` and `x1` is all of `B`, the body's result
    at `y = (p, q)` is `A·B` at `i = (5000·n + p, q)`: both are `∑ k, A[5000·n + p, k] · B[k, q]`, term by term. -/
theorem block_entry (A : Cert.Spec.Mat 50000 128) (B : Cert.Spec.Mat 128 128)
    (x0 : Vec Ideal S5000x128 .f32) (x1 : Vec Ideal S128x128 .f32) (n : ℕ)
    (h0 : ∀ (x : S5000x128.Idx) (k : S50000x128.Idx), (k 0).val = n * 5000 + (x 0).val → (k 1).val = (x 1).val → x0 x = A k)
    (h1 : ∀ x : S128x128.Idx, x1 x = B x)
    (y : S5000x128.Idx) (i : S50000x128.Idx) (hi0 : (i 0).val = n * 5000 + (y 0).val) (hi1 : (i 1).val = (y 1).val) :
    k2_pay1 x0 x1 y = Cert.Spec.mm A B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  rw [body_at, Cert.Spec.mm_at]
  refine Finset.sum_congr rfl fun k _ => ?_
  rw [h0 (ix2 p k) (ix2 r k) hi0 rfl, h1]

/-! ## From the ten blocks to the array -/

/-- What point `t` writes back is block `t` of the product of the two input arrays: the body stores its result
    over the whole staging buffer, having loaded the two input blocks whole, and the block's element `(p, q)`
    sits in the result array at `(5000·t + p, q)`. -/
theorem written_block (c : Dev nD) (t : Fin cfg2.N) :
    (dat2 (F := Ideal) V c).flushed 2 t
      = ((cfg2.win 2).blk t).view.read (Elt Ideal) (Cert.Spec.mm (V c main_v43) (V c main_arg4)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x128) zero_off]
  obtain ⟨-, -, -, -, e0, e1⟩ := block_indices t
  funext j
  rw [View.read_apply]
  refine block_entry (V c main_v43) (V c main_arg4) (iblk2 V c 0 t) (iblk2 V c 1 t) t.val
    (fun x k h0 h1 => left_block_at V c t x k h0 h1) (right_block_at V c t) _ _ ?_ ?_
  · show win2_2.index t 0 * 5000 + 1 * (j 0).val = t.val * 5000 + (j 0).val
    rw [e0]; omega
  · show win2_2.index t 1 * 128 + 1 * (j 1).val = (j 1).val
    rw [e1]; omega

/-- An index of the result array is in point `t`'s block iff each coordinate is in the block's range on its axis. -/
theorem in_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v44).slice (win2_2.rect t)).set ↔ _
  rw [View.set_slice_whole, Rect.mem_set_unit]
  exact Iff.rfl

/-- The ten blocks tile the 50000 rows: row `r` is in the block of point `r / 5000`, which is written back. -/
theorem every_row_written (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := rfl
  have ht : (i 0).val / 5000 < cfg2.N := by rw [hN]; omega
  obtain ⟨-, -, -, -, e0, e1⟩ := block_indices ⟨(i 0).val / 5000, ht⟩
  refine ⟨⟨(i 0).val / 5000, ht⟩, flush2_2 _, ?_⟩
  rw [in_block]
  intro a
  match a with
  | ⟨0, _⟩ =>
    show win2_2.index ⟨(i 0).val / 5000, ht⟩ 0 * 5000 ≤ (i 0).val
      ∧ (i 0).val < win2_2.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_2.index ⟨(i 0).val / 5000, ht⟩ 1 * 128 ≤ (i 1).val
      ∧ (i 1).val < win2_2.index ⟨(i 0).val / 5000, ht⟩ 1 * 128 + 128
    rw [e1]
    omega

/-- After the second product's ten row blocks are written back, the result array is the matrix product of the two
    input arrays as the region finds them. -/
theorem final2 (c : Dev nD) :
    (dat2 (F := Ideal) V c).arrAt 2 cfg2.N = Cert.Spec.mm (V c main_v43) (V c main_arg4) :=
  (dat2 (F := Ideal) V c).arrAt_eq_of_cover 2 (Cert.Spec.mm (V c main_v43) (V c main_arg4))
    (fun t _ => written_block V c t) every_row_written

end Cert.KernelIdeal.Region2

end
-- ==== Proof.Region3.lean ====
import proofs.«148656_j75290776698947_1_alg».proof.Proof.Gen.KernelIdeal.Frame
import proofs.«148656_j75290776698947_1_alg».proof.Proof.Spec
import proofs.«148656_j75290776698947_1_alg».proof.Proof.LibMatmulAt
import Idealize.ShloMosaic.Lib.Pipeline.Value

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block offset vector of a store at the buffer's origin. -/
theorem hz : (![0, 0] : Fin 2 → Nat) = fun _ => 0 := funext fun a => by fin_cases a <;> rfl

/-- The body's arithmetic read at row `p`, column `q` of a block: the two identity casts drop out, the self-loop column is
    read at `(p, 0)` and the bias row at `(0, q)` (a broadcast reads the operand at coordinate `0` on its unit axes), and every
    other operation acts entry by entry. -/
theorem pay_at (x0 x1 : FVec Ideal S5000x128 .f32) (x2 : FVec Ideal S5000x1 .f32) (x3 : FVec Ideal S1x128 .f32)
    (p : Fin 5000) (q : Fin 128) :
    k3_pay1 (F := Ideal) x0 x1 x2 x3 (ix2 p q)
      = FloatOps.maximumf
          (FloatOps.addf (FloatOps.addf (x0 (ix2 p q)) (FloatOps.mulf (x1 (ix2 p q)) (x2 (ix2 p 0)))) (x3 (ix2 0 q)))
          (FloatOps.ofBits .f32 0x00000000#32) := by
  unfold k3_pay1
  simp only [shapeCast_self]
  have e2 : broadcastTo S5000x128 x2 broadcasts_S5000x1_S5000x128 (ix2 p q) = x2 (ix2 p 0) :=
    broadcastTo_apply x2 _ (ix2 p q) (ix2 p 0) (fun a => by
      match a with
      | ⟨0, _⟩ => rfl
      | ⟨1, _⟩ => rfl)
  have e3 : broadcastTo S5000x128 x3 broadcasts_S1x128_S5000x128 (ix2 p q) = x3 (ix2 0 q) :=
    broadcastTo_apply x3 _ (ix2 p q) (ix2 0 q) (fun a => by
      match a with
      | ⟨0, _⟩ => rfl
      | ⟨1, _⟩ => rfl)
  show FloatOps.maximumf (FloatOps.addf (FloatOps.addf (x0 (ix2 p q)) (FloatOps.mulf (x1 (ix2 p q))
      (broadcastTo S5000x128 x2 broadcasts_S5000x1_S5000x128 (ix2 p q))))
      (broadcastTo S5000x128 x3 broadcasts_S1x128_S5000x128 (ix2 p q))) _ = _
  rw [e2, e3]
  rfl

/-- The five index maps over the ten grid points: every row-tiled window's block index is `(t, 0)`, the bias row's is
    `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's arithmetic as one function of the block index. -/
theorem pay_eq (x0 x1 : FVec Ideal S5000x128 .f32) (x2 : FVec Ideal S5000x1 .f32) (x3 : FVec Ideal S1x128 .f32) :
    k3_pay1 (F := Ideal) x0 x1 x2 x3 = fun j : S5000x128.Idx =>
      FloatOps.maximumf
        (FloatOps.addf (FloatOps.addf (x0 j) (FloatOps.mulf (x1 j) (x2 (ix2 (j 0) 0)))) (x3 (ix2 0 (j 1))))
        (FloatOps.ofBits .f32 0x00000000#32) := by
  funext j
  obtain ⟨p, q, rfl⟩ : ∃ (p : Fin 5000) (q : Fin 128), j = ix2 p q := ⟨j 0, j 1, eq_ix2 j⟩
  exact pay_at x0 x1 x2 x3 p q

/-- What point `t` writes back is block `t` of the layer epilogue of the four input arrays: each input block's entry sits in
    its array at block index × block size + the coordinate inside the block, the row-tiled inputs move with the output,
    the self-loop column is read at the output's row and the bias row at the output's column. -/
theorem flushed_eq (c : Dev nD) (t : Fin cfg3.N) :
    (dat3 (F := Ideal) V c).flushed 4 t = ((cfg3.win 4).blk t).view.read (Elt Ideal)
      (Cert.Spec.conv2 (V c main_v57) (V c main_v44) (V c main_v27) (V c main_v58)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  rw [pay_eq]
  obtain ⟨e00, e01, e10, e11, e20, e21, e30, e31, e40, e41⟩ := idx_facts t
  funext j
  show FloatOps.maximumf (F := Ideal)
      (FloatOps.addf (F := Ideal)
        (FloatOps.addf (F := Ideal) (V c main_v57 (((cfg3.win 0).blk t).view.emb j))
          (FloatOps.mulf (F := Ideal) (V c main_v44 (((cfg3.win 1).blk t).view.emb j))
            (V c main_v27 (((cfg3.win 2).blk t).view.emb (ix2 (n0 := 5000) (n1 := 1) (j 0) 0)))))
        (V c main_v58 (((cfg3.win 3).blk t).view.emb (ix2 (n0 := 1) (n1 := 128) 0 (j 1)))))
      (FloatOps.ofBits (F := Ideal) .f32 0x00000000#32)
    = FloatOps.maximumf (F := Ideal)
      (FloatOps.addf (F := Ideal)
        (FloatOps.addf (F := Ideal) (V c main_v57 (((cfg3.win 4).blk t).view.emb j))
          (FloatOps.mulf (F := Ideal) (V c main_v44 (((cfg3.win 4).blk t).view.emb j))
            (V c main_v27 (ix2 (n0 := 50000) (n1 := 1) ((((cfg3.win 4).blk t).view.emb j) 0) 0))))
        (V c main_v58 (ix2 (n0 := 1) (n1 := 128) 0 ((((cfg3.win 4).blk t).view.emb j) 1))))
      (FloatOps.ofBits (F := Ideal) .f32 0x00000000#32)
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (ix2 (n0 := 5000) (n1 := 1) (j 0) 0)
      = (ix2 (n0 := 50000) (n1 := 1) ((((cfg3.win 4).blk t).view.emb j) 0) 0 : S50000x1.Idx) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (ix2 (n0 := 1) (n1 := 128) 0 (j 1))
      = (ix2 (n0 := 1) (n1 := 128) 0 ((((cfg3.win 4).blk t).view.emb j) 1) : S1x128.Idx) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  rw [h0, h1, h2, h3]

/-- An index of the result array lies in point `t`'s block iff each coordinate lies in the block's range on its axis. -/
theorem mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v59).slice (win3_4.rect t)).set ↔ _
  rw [View.set_slice_whole, Rect.mem_set_unit]
  exact Iff.rfl

/-- The ten row blocks tile the fifty thousand rows: row `r` lies in the block of point `r / 5000`, and every point writes
    its block back. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show (i 0).val / 5000 < 10; omega⟩, rfl⟩
  obtain ⟨-, -, -, -, -, -, -, -, e40, e41⟩ := idx_facts t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- After the second epilogue's ten row blocks are written back, the result array is the layer epilogue of the four
    input arrays as the region finds them. -/
theorem final3 (c : Dev nD) :
    (dat3 (F := Ideal) V c).arrAt 4 cfg3.N = Cert.Spec.conv2 (V c main_v57) (V c main_v44) (V c main_v27) (V c main_v58) :=
  (dat3 (F := Ideal) V c).arrAt_eq_of_cover 4
    (Cert.Spec.conv2 (V c main_v57) (V c main_v44) (V c main_v27) (V c main_v58))
    (fun t _ => flushed_eq V c t) cover

end Cert.KernelIdeal.Region3

end
-- ==== Proof.Region4.lean ====
import proofs.«148656_j75290776698947_1_alg».proof.Proof.Gen.KernelIdeal.Frame
import proofs.«148656_j75290776698947_1_alg».proof.Proof.Spec
import proofs.«148656_j75290776698947_1_alg».proof.Proof.LibMatmulAt
import Idealize.ShloMosaic.Lib.Pipeline.Value

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One block's arithmetic, entry by entry -/

/-- The offsets `(0, 0)` are the zero offsets. -/
theorem zero_offsets : (![0, 0] : Fin 2 → Nat) = fun _ => 0 := funext fun a => by fin_cases a <;> rfl

/-- The `[1, 1]` bias repeated down a column of 5000 rows reads, at every row, its single entry. -/
theorem bias_column (x2 : Vec Ideal S1x1 .f32) (p : Fin 5000) (q : Fin 1) :
    broadcastTo S5000x1 x2 broadcasts_S1x1_S5000x1 (ix2 p q) = x2 (ix2 0 0) :=
  broadcastTo_apply x2 _ (ix2 p q) (ix2 0 0) fun a => by
    match a with
    | ⟨0, _⟩ => rfl
    | ⟨1, _⟩ => rfl

/-- Entry `(p, q)` of what the body computes from a block of 5000 rows `x0`, the weight column `x1` and the bias
    `x2`: row `p` of `x0` against column `q` of `x1`, summed over the 128 contracted positions, plus the bias entry.
    The changes of number format are the identity on extended reals, the casts to the same shape are the identity,
    and a product into the zero accumulator is the plain sum over the contracted axis. -/
theorem payload_at (x0 : Vec Ideal S5000x128 .f32) (x1 : Vec Ideal S128x1 .f32) (x2 : Vec Ideal S1x1 .f32) (p : Fin 5000) (q : Fin 1) :
    (k4_pay1 (F := Ideal) x0 x1 x2) (ix2 p q) = FloatOps.addf (∑ c : Fin 128, x0 (ix2 p c) * x1 (ix2 c q)) (x2 (ix2 0 0)) := by
  unfold k4_pay1
  show FloatOps.addf (FloatOps.matmul _ _ _ _ _ (ix2 p q)) (broadcastTo _ _ _ (ix2 p q)) = _
  rw [Cert.LibMatmulAt.matmul_zero_at dot_S5000x128_S128x1_S5000x1_1_0_0_1_n_n rfl rfl rfl rfl rfl rfl]
  rw [shapeCast_self, shapeCast_self, bias_column]
  rfl

/-! ## Where each window's block sits in its array -/

/-- The block indices over the ten grid points: the feature rows and the result rows advance one block per point and
    stay at column block 0; the weight column and the bias stay at block `(0, 0)` throughout. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The feature block at point `t` is rows `5000·t … 5000·t + 4999` of the feature array, all 128 columns:
    entry `x` of the block is the array's entry `k` whenever `k`'s row is `5000·t` plus `x`'s row and the columns agree. -/
theorem rows_block (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c main_v59 : S50000x128.Idx → Elt Ideal .f32) k := by
  obtain ⟨e0, e1, -⟩ := index_maps t
  unfold iblk4
  rw [View.read_apply]
  show V c main_v59 _ = V c main_v59 _
  congr 1
  funext a
  apply Fin.ext
  match a with
  | ⟨0, _⟩ => show win4_0.index t 0 * 5000 + 1 * (x 0).val = (k 0).val; rw [e0, hk0]; omega
  | ⟨1, _⟩ => show win4_0.index t 1 * 128 + 1 * (x 1).val = (k 1).val; rw [e1, hk1]; omega

/-- The weight column's block is the whole `[128, 1]` array at every point. -/
theorem weights_block (c : Dev nD) (t : Fin cfg4.N) (x : S128x1.Idx) :
    (iblk4 V c 1 t : Vec Ideal S128x1 .f32) x = (V c main_arg6 : S128x1.Idx → Elt Ideal .f32) x := by
  obtain ⟨-, -, e0, e1, -⟩ := index_maps t
  unfold iblk4
  rw [View.read_apply]
  show V c main_arg6 _ = V c main_arg6 _
  congr 1
  funext a
  apply Fin.ext
  match a with
  | ⟨0, _⟩ => show win4_1.index t 0 * 128 + 1 * (x 0).val = (x 0).val; rw [e0]; omega
  | ⟨1, _⟩ => show win4_1.index t 1 * 1 + 1 * (x 1).val = (x 1).val; rw [e1]; omega

/-- The bias's block is the whole `[1, 1]` array at every point. -/
theorem bias_block (c : Dev nD) (t : Fin cfg4.N) (x : S1x1.Idx) :
    (iblk4 V c 2 t : Vec Ideal S1x1 .f32) x = (V c main_v60 : S1x1.Idx → Elt Ideal .f32) x := by
  obtain ⟨-, -, -, -, e0, e1, -⟩ := index_maps t
  unfold iblk4
  rw [View.read_apply]
  show V c main_v60 _ = V c main_v60 _
  congr 1
  funext a
  apply Fin.ext
  match a with
  | ⟨0, _⟩ => show win4_2.index t 0 * 1 + 1 * (x 0).val = (x 0).val; rw [e0]; omega
  | ⟨1, _⟩ => show win4_2.index t 1 * 1 + 1 * (x 1).val = (x 1).val; rw [e1]; omega

/-! ## The read-out at a row -/

/-- The read-out at an index of the `[50000, 1]` result whose row is `r`: row `r` of the features against the weight
    column, plus the bias entry (the only column is column 0). -/
theorem out2_at (h : Cert.Spec.Mat 50000 128) (Wl : Cert.Spec.Mat 128 1) (bl : Cert.Spec.Mat 1 1) (i : S50000x1.Idx) (r : Fin 50000)
    (hr : (i 0).val = r.val) :
    Cert.Spec.out2 h Wl bl i = FloatOps.addf (∑ c' : Fin 128, h (ix2 r c') * Wl (ix2 c' 0)) (bl (ix2 0 0)) := by
  have hi : i = ix2 r 0 := funext fun a => Fin.ext (by
    match a with
    | ⟨0, _⟩ => exact hr
    | ⟨1, _⟩ => have h1 : (i 1).val < 1 := idx2_lt1 i
                show (i 1).val = 0
                omega)
  subst hi
  rfl

/-! ## What each point writes back, and the whole array -/

/-- What point `t` writes back is block `t` of the read-out of the three input arrays: entry `(p, 0)` of the body's
    result uses row `p` of the feature block, which is row `5000·t + p` of the features, and that is the row of the
    result array under entry `(p, 0)` of the output block. -/
theorem flushed_eq (c : Dev nD) (t : Fin cfg4.N) :
    (dat4 (F := Ideal) V c).flushed 3 t = ((cfg4.win 3).blk t).view.read (Elt Ideal) (Cert.Spec.out2 (V c main_v59) (V c main_arg6) (V c main_v60)) := by
  show (cfg4.win 3).cut (grid4.coords t) ((dat4 V c).after 3 t) = _
  rw [after4_3]
  unfold out4_3
  rw [View.canon_unit_zero zero_offsets]
  simp only [View.ld_unit_zero (S := S5000x128) zero_offsets, View.ld_unit_zero (S := S128x1) zero_offsets, View.ld_unit_zero (S := S1x1) zero_offsets]
  obtain ⟨-, -, -, -, -, -, e0, e1⟩ := index_maps t
  have hN : t.val < 10 := Nat.lt_of_lt_of_eq t.isLt N_4
  funext j
  obtain ⟨p, q, rfl⟩ : ∃ (p : Fin 5000) (q : Fin 1), j = ix2 p q := ⟨j 0, j 1, eq_ix2 j⟩
  obtain rfl : q = 0 := Subsingleton.elim _ _
  show k4_pay1 (F := Ideal) (iblk4 V c 0 t) (iblk4 V c 1 t) (iblk4 V c 2 t) (ix2 p 0)
    = Cert.Spec.out2 (V c main_v59) (V c main_arg6) (V c main_v60) (((cfg4.win 3).blk t).view.emb (ix2 p 0))
  refine (payload_at _ _ _ p 0).trans ?_
  have hr : ((((cfg4.win 3).blk t).view.emb (ix2 p 0)) 0).val = (⟨5000 * t.val + p.val, by omega⟩ : Fin 50000).val := by
    show win4_3.index t 0 * 5000 + 1 * p.val = 5000 * t.val + p.val
    rw [e0]; omega
  rw [out2_at _ _ _ _ _ hr, bias_block]
  congr 1
  refine Finset.sum_congr rfl fun c' _ => ?_
  rw [rows_block V c t (ix2 p c') (ix2 ⟨5000 * t.val + p.val, by omega⟩ c') rfl rfl, weights_block]

/-- An index of the result array is in point `t`'s block iff each coordinate is in the block's range on its axis. -/
theorem mem_block (t : Fin cfg4.N) (i : S50000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v61).slice (win4_3.rect t)).set ↔ _
  rw [View.set_slice_whole, Rect.mem_set_unit]
  exact Iff.rfl

/-- The ten blocks of 5000 rows tile the 50000 rows: row `r` is in the block of point `r / 5000`, which writes back. -/
theorem covered (i : S50000x1.Idx) : ∃ t : Fin cfg4.N, (cfg4.win 3).flush t = true ∧ i ∈ ((cfg4.win 3).blk t).view.set := by
  have hi0 : (i 0).val < 50000 := idx2_lt0 i
  have hi1 : (i 1).val < 1 := idx2_lt1 i
  obtain ⟨t, ht⟩ : ∃ t : Fin cfg4.N, t.val = (i 0).val / 5000 :=
    ⟨⟨(i 0).val / 5000, Nat.lt_of_lt_of_eq (by omega : (i 0).val / 5000 < 10) N_4.symm⟩, rfl⟩
  obtain ⟨-, -, -, -, -, -, e0, e1⟩ := index_maps t
  refine ⟨t, flush4_3 t, ?_⟩
  rw [mem_block]
  intro a
  match a with
  | ⟨0, _⟩ => show win4_3.index t 0 * 5000 ≤ (i 0).val ∧ (i 0).val < win4_3.index t 0 * 5000 + 5000
              rw [e0, ht]; omega
  | ⟨1, _⟩ => show win4_3.index t 1 * 1 ≤ (i 1).val ∧ (i 1).val < win4_3.index t 1 * 1 + 1
              rw [e1]; omega

/-- After the read-out's ten row blocks are written back, the result array is the read-out of the three input arrays
    as the region finds them. -/
theorem final4 (c : Dev nD) :
    (dat4 (F := Ideal) V c).arrAt 3 cfg4.N = Cert.Spec.out2 (V c main_v59) (V c main_arg6) (V c main_v60) :=
  (dat4 (F := Ideal) V c).arrAt_eq_of_cover 3 _ (fun t _ => flushed_eq V c t) covered

end Cert.KernelIdeal.Region4

end
-- ==== Proof.KernelValue.lean ====
/-
  The idealized kernel program's result, as the network of the argument arrays.

  Region by region: the first product leaves `x·W₁`; the host stretch after it leaves that product's aggregate; the
  first epilogue reads the aggregate, the product, the self-loop column and the bias row and leaves the first layer;
  the second product, aggregate and epilogue do the same from the first layer with `W₂, b₂`; the read-out leaves
  `layer₂·Wl + bl`. Each region's closed form (one whole-array function of its input arrays as the region finds
  them) is fed with what those arrays hold at the region's entry: an argument as launched, an earlier region's result,
  or a host stretch's value. The aggregates and the self-loop weight are the reference program's own.
-/
import proofs.«148656_j75290776698947_1_alg».proof.Proof.Gen.KernelIdeal.Frame
import proofs.«148656_j75290776698947_1_alg».proof.Proof.Spec
import proofs.«148656_j75290776698947_1_alg».proof.Proof.Keep
import proofs.«148656_j75290776698947_1_alg».proof.Proof.HostValues
import proofs.«148656_j75290776698947_1_alg».proof.Proof.Region0
import proofs.«148656_j75290776698947_1_alg».proof.Proof.Region1
import proofs.«148656_j75290776698947_1_alg».proof.Proof.Region2
import proofs.«148656_j75290776698947_1_alg».proof.Proof.Region3
import proofs.«148656_j75290776698947_1_alg».proof.Proof.Region4

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first product: `x·W₁`. -/
theorem W2_v28 : W2 m ρ c (Proc.devRef .tc main_v28) = (Cert.Spec.mm (m ((c : Thread nD τ).loc main_arg0)) (m ((c : Thread nD τ).loc main_arg2))) := by
  have h := (W2_arr m ρ c 2).trans (Region0.final0 (V1 m ρ) c)
  have e0 : V1 m ρ c main_arg0 = (m ((c : Thread nD τ).loc main_arg0)) := Keep.W1_arg0 m ρ c
  have e2 : V1 m ρ c main_arg2 = (m ((c : Thread nD τ).loc main_arg2)) := Keep.W1_arg2 m ρ c
  rw [e0, e2] at h
  exact h

/-- The first layer: the epilogue of the first product and its aggregate, with the self-loop weight and `b₁`. -/
theorem W4_v43 : W4 m ρ c (Proc.devRef .tc main_v43) = (Cert.Spec.layer (Cert.ReferenceIdeal.RefValue.agg₁ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3))) := by
  have h := (W4_arr m ρ c 4).trans (Region1.final1 (V3 m ρ) c)
  have e41 : V3 m ρ c main_v41 = (Cert.ReferenceIdeal.RefValue.agg₁ (m ((c : Thread nD τ).loc main_arg1))) (Cert.Spec.mm (m ((c : Thread nD τ).loc main_arg0)) (m ((c : Thread nD τ).loc main_arg2))) :=
    (HostValues.W3_v41 m ρ c).trans (congrArg (Cert.ReferenceIdeal.RefValue.agg₁ (m ((c : Thread nD τ).loc main_arg1))) (W2_v28 m ρ c))
  have e28 : V3 m ρ c main_v28 = (Cert.Spec.mm (m ((c : Thread nD τ).loc main_arg0)) (m ((c : Thread nD τ).loc main_arg2))) := (Keep.W3_v28 m ρ c).trans (W2_v28 m ρ c)
  have e27 : V3 m ρ c main_v27 = W1 m ρ c (Proc.devRef .tc main_v27) := Keep.W3_v27 m ρ c
  rw [e41, e28, e27] at h
  refine h.trans ?_
  unfold Cert.Spec.layer
  exact Cert.Spec.conv2_eq_conv _ _ _ _ _ _ (fun r => HostValues.W1_v27_col m ρ c r) (fun j => HostValues.W3_v42_row m ρ c j)

/-- The second product: the first layer times `W₂`. -/
theorem W5_v44 : W5 m ρ c (Proc.devRef .tc main_v44) = (Cert.Spec.mm (Cert.Spec.layer (Cert.ReferenceIdeal.RefValue.agg₁ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3))) (m ((c : Thread nD τ).loc main_arg4))) := by
  have h := (W5_arr m ρ c 2).trans (Region2.final2 (V4 m ρ) c)
  have e43 : V4 m ρ c main_v43 = (Cert.Spec.layer (Cert.ReferenceIdeal.RefValue.agg₁ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3))) := W4_v43 m ρ c
  have e4 : V4 m ρ c main_arg4 = (m ((c : Thread nD τ).loc main_arg4)) := Keep.W4_arg4 m ρ c
  rw [e43, e4] at h
  exact h

/-- The second layer. -/
theorem W7_v59 : W7 m ρ c (Proc.devRef .tc main_v59) = (Cert.Spec.layer (Cert.ReferenceIdeal.RefValue.agg₂ (m ((c : Thread nD τ).loc main_arg1))) (Cert.ReferenceIdeal.Read.val_main_v26 (F := Ideal) (m ((c : Thread nD τ).loc main_arg1))) (Cert.Spec.layer (Cert.ReferenceIdeal.RefValue.agg₁ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3))) (m ((c : Thread nD τ).loc main_arg4)) (m ((c : Thread nD τ).loc main_arg5))) := by
  have h := (W7_arr m ρ c 4).trans (Region3.final3 (V6 m ρ) c)
  have e57 : V6 m ρ c main_v57 = (Cert.ReferenceIdeal.RefValue.agg₂ (m ((c : Thread nD τ).loc main_arg1))) (Cert.Spec.mm (Cert.Spec.layer (Cert.ReferenceIdeal.RefValue.agg₁ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3))) (m ((c : Thread nD τ).loc main_arg4))) :=
    (HostValues.W6_v57 m ρ c).trans (congrArg (Cert.ReferenceIdeal.RefValue.agg₂ (m ((c : Thread nD τ).loc main_arg1))) (W5_v44 m ρ c))
  have e44 : V6 m ρ c main_v44 = (Cert.Spec.mm (Cert.Spec.layer (Cert.ReferenceIdeal.RefValue.agg₁ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3))) (m ((c : Thread nD τ).loc main_arg4))) := (Keep.W6_v44 m ρ c).trans (W5_v44 m ρ c)
  have e27 : V6 m ρ c main_v27 = W1 m ρ c (Proc.devRef .tc main_v27) := Keep.W6_v27 m ρ c
  rw [e57, e44, e27] at h
  refine h.trans ?_
  unfold Cert.Spec.layer
  exact Cert.Spec.conv2_eq_conv _ _ _ _ _ _ (fun r => HostValues.W1_v27_col m ρ c r) (fun j => HostValues.W6_v58_row m ρ c j)

/-- THE RESULT: the network of the argument arrays. -/
theorem kernel_value : W9 m ρ c (Proc.devRef .tc main_v61)
    = Cert.Spec.net (Cert.ReferenceIdeal.RefValue.agg₁ (m ((c : Thread nD τ).loc main_arg1))) (Cert.ReferenceIdeal.RefValue.agg₂ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (W9_arr m ρ c 3).trans (Region4.final4 (V8 m ρ) c)
  have e59 : V8 m ρ c main_v59 = (Cert.Spec.layer (Cert.ReferenceIdeal.RefValue.agg₂ (m ((c : Thread nD τ).loc main_arg1))) (Cert.ReferenceIdeal.Read.val_main_v26 (F := Ideal) (m ((c : Thread nD τ).loc main_arg1))) (Cert.Spec.layer (Cert.ReferenceIdeal.RefValue.agg₁ (m ((c : Thread nD τ).loc main_arg1))) (Cert.ReferenceIdeal.Read.val_main_v26 (F := Ideal) (m ((c : Thread nD τ).loc main_arg1))) (m ((c : Thread nD τ).loc main_arg0)) (m ((c : Thread nD τ).loc main_arg2)) (m ((c : Thread nD τ).loc main_arg3))) (m ((c : Thread nD τ).loc main_arg4)) (m ((c : Thread nD τ).loc main_arg5))) := (Keep.W8_v59 m ρ c).trans (W7_v59 m ρ c)
  have e6 : V8 m ρ c main_arg6 = (m ((c : Thread nD τ).loc main_arg6)) := Keep.W8_arg6 m ρ c
  rw [e59, e6] at h
  refine h.trans ?_
  unfold Cert.Spec.net
  exact Cert.Spec.out2_eq_out _ _ _ _ (HostValues.W8_v60_at m ρ c)

end Cert.KernelIdeal.KValue

end
-- ==== Proof.lean ====
/-
  A two-layer graph convolution with a linear read-out, computed two ways, gives one result over the extended reals.

  With `deg[i] = 1 + #{edges into i}`, `dinv = deg^(-1/2)`, edge weight `dinv[src]·dinv[dst]` and self-loop weight
  `dinv²`, a layer sends node features `h` to `max ((agg (h·W) + (h·W) ⊙ dinv²) + b, 0)`, where `agg` gathers the
  source rows, scales each by its edge weight and adds it into its target row; the result is `h₂·Wl + bl`.
  The kernel program computes the three matrix products and the two epilogues in row blocks of 5000 nodes (operands
  rounded to bf16 on the way into each product) and leaves degrees, weights, gathers and scatter-adds to the host;
  the reference does everything on the host. At the ideal values rounding is the identity, a product accumulated
  into zero is the plain sum over the contracted axis, and ten row blocks of a product or of an entrywise epilogue
  are the rows of the whole-array function; the host operations between them are the same operations on the same
  operands in both programs. So both results are `Spec.net` of the arguments, with the same aggregates and the same
  self-loop weight. No law of the extended reals beyond that is used, so finiteness of the inputs is never opened.

  Frames: the two kernel programs' are the launch over their five regions and four host stretches; the reference's
  is its run with the result dropped. The idealization rewrote nothing, so there is nothing to preserve.
-/
import proofs.«148656_j75290776698947_1_alg».proof.Defs
import proofs.«148656_j75290776698947_1_alg».proof.Proof.Gen.Kernel
import proofs.«148656_j75290776698947_1_alg».proof.Proof.Gen.Kernel.Skeleton
import proofs.«148656_j75290776698947_1_alg».proof.Proof.Gen.Kernel.Launch
import proofs.«148656_j75290776698947_1_alg».proof.Proof.Gen.Kernel.Points
import proofs.«148656_j75290776698947_1_alg».proof.Proof.Gen.Kernel.Frame
import proofs.«148656_j75290776698947_1_alg».proof.Proof.Gen.KernelIdeal
import proofs.«148656_j75290776698947_1_alg».proof.Proof.Gen.KernelIdeal.Skeleton
import proofs.«148656_j75290776698947_1_alg».proof.Proof.Gen.KernelIdeal.Launch
import proofs.«148656_j75290776698947_1_alg».proof.Proof.Gen.KernelIdeal.Points
import proofs.«148656_j75290776698947_1_alg».proof.Proof.Gen.KernelIdeal.Frame
import proofs.«148656_j75290776698947_1_alg».proof.Proof.Gen.ReferenceIdeal
import proofs.«148656_j75290776698947_1_alg».proof.Proof.Gen.Pre_finite_inputs
import proofs.«148656_j75290776698947_1_alg».proof.Proof.Gen.ReferenceIdeal.Run
import proofs.«148656_j75290776698947_1_alg».proof.Proof.Gen.ReferenceIdeal.Read
import proofs.«148656_j75290776698947_1_alg».proof.Proof.KernelRun
import proofs.«148656_j75290776698947_1_alg».proof.Proof.KernelValue
import proofs.«148656_j75290776698947_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its value run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the arguments both programs end with the network of those arguments. -/
theorem algebraic : Cert.algebraic_KernelIdeal_ReferenceIdeal := by
  intro m ρ m' ρ' _ hagree
  refine ⟨fun c => Cert.Spec.net
      (Cert.ReferenceIdeal.RefValue.agg₁ (m ((c.tc : Thread Cert.KernelIdeal.nD Cert.KernelIdeal.τ).loc Cert.KernelIdeal.main_arg1))) (Cert.ReferenceIdeal.RefValue.agg₂ (m ((c.tc : Thread Cert.KernelIdeal.nD Cert.KernelIdeal.τ).loc Cert.KernelIdeal.main_arg1)))
      (Cert.ReferenceIdeal.Read.val_main_v26 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.kernel_value m ρ c), (h c).2⟩)
      (Cert.KernelIdeal.ValueRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v74_eq, Cert.ReferenceIdeal.RefValue.ref_value, a0, a1, a2, a3, a4, a5, a6, a7]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
